-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S512x3072 : S_.BroadcastsInDim S512x3072 (![] : Fin 0 → Fin S512x3072.rank)
  reducesTo_S512x3072_S_d0_1 : S512x3072.ReducesTo [0, 1] S_
  bcast_S_S512 : S_.BroadcastsInDim S512 (![] : Fin 0 → Fin S512.rank)
  reducesTo_S512_S_d0 : S512.ReducesTo [0] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10x512 .f32) (main_arg5 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S10x512 .f32 := Host.absf main_arg4
  let main_cst_6 : FVec F S_ .f32 := constant S_ .f32 0x7F800000#32
  let main_v20 : FVec F S10x512 .f32 := broadcastInDim S10x512 ![] bcast_S_S10x512 main_cst_6
  let main_v21 : IVec S10x512 1 := cmpf .olt main_v19 main_v20
  let main_c_7 : IVec S_ 1 := constantI S_ 1 1#1
  let main_v22 : IVec S_ 1 := (fun x v => Host.reduce IntOp.andi x v reducesTo_S10x512_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S16384x3072 .f32) (main_arg1 : FVec F S3072x3072 .f32) (main_arg2 : FVec F S512x3072 .f32) (main_arg3 : FVec F S512 .f32) (main_arg4 : FVec F S10x512 .f32) (main_arg5 : FVec F S10 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S512x3072 .f32 := Host.absf main_arg2
  let main_cst_2 : FVec F S_ .f32 := constant S_ .f32 0x7F800000#32
  let main_v10 : FVec F S512x3072 .f32 := broadcastInDim S512x3072 ![] bcast_S_S512x3072 main_cst_2
  let main_v11 : IVec S512x3072 1 := cmpf .olt main_v9 main_v10
  let main_c_3 : IVec S_ 1 := constantI S_ 1 1#1
  let main_v12 : IVec S_ 1 := (fun x v => Host.reduce IntOp.andi x v reducesTo_S512x3072_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S3072x512 : Shape := ⟨2, ![3072, 512]⟩
abbrev S512x10 : Shape := ⟨2, ![512, 10]⟩
abbrev S1x512 : Shape := ⟨2, ![1, 512]⟩
abbrev S1x10 : Shape := ⟨2, ![1, 10]⟩
abbrev S16384x10 : Shape := ⟨2, ![16384, 10]⟩
abbrev S1024x512 : Shape := ⟨2, ![1024, 512]⟩
abbrev S1024x10 : Shape := ⟨2, ![1024, 10]⟩
abbrev S1024x3072 : Shape := ⟨2, ![1024, 3072]⟩

abbrev nBuf : Space → Nat
  | .hbm => 15
  | .vmem => 11
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S512x3072, .f32⟩
  | .hbm, ⟨3, _⟩ => ⟨S512, .f32⟩
  | .hbm, ⟨4, _⟩ => ⟨S10x512, .f32⟩
  | .hbm, ⟨5, _⟩ => ⟨S10, .f32⟩
  | .hbm, ⟨6, _⟩ => ⟨S16384x3072, .bf16⟩
  | .hbm, ⟨7, _⟩ => ⟨S3072x3072, .bf16⟩
  | .hbm, ⟨8, _⟩ => ⟨S3072x512, .f32⟩
  | .hbm, ⟨9, _⟩ => ⟨S3072x512, .bf16⟩
  | .hbm, ⟨10, _⟩ => ⟨S512x10, .f32⟩
  | .hbm, ⟨11, _⟩ => ⟨S512x10, .bf16⟩
  | .hbm, ⟨12, _⟩ => ⟨S1x512, .f32⟩
  | .hbm, ⟨13, _⟩ => ⟨S1x10, .f32⟩
  | .hbm, ⟨14, _⟩ => ⟨S16384x10, .f32⟩
  | .local _ .vmem, ⟨0, _⟩ => ⟨S1024x512, .bf16⟩
  | .local _ .vmem, ⟨1, _⟩ => ⟨S1024x512, .bf16⟩
  | .local _ .vmem, ⟨2, _⟩ => ⟨S512x3072, .bf16⟩
  | .local _ .vmem, ⟨3, _⟩ => ⟨S512x3072, .bf16⟩
  | .local _ .vmem, ⟨4, _⟩ => ⟨S3072x512, .bf16⟩
  | .local _ .vmem, ⟨5, _⟩ => ⟨S1x512, .f32⟩
  | .local _ .vmem, ⟨6, _⟩ => ⟨S512x10, .bf16⟩
  | .local _ .vmem, ⟨7, _⟩ => ⟨S1x10, .f32⟩
  | .local _ .vmem, ⟨8, _⟩ => ⟨S1024x10, .f32⟩
  | .local _ .vmem, ⟨9, _⟩ => ⟨S1024x10, .f32⟩
  | .local _ .vmem, ⟨10, _⟩ => ⟨S1024x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  transposes_S512x3072_S3072x512_1_0 : S512x3072.Transposes [1, 0] S3072x512
  transposes_S10x512_S512x10_1_0 : S10x512.Transposes [1, 0] S512x10
  shapeCasts_S512_S1x512 : S512.ShapeCasts S1x512
  shapeCasts_S10_S1x10 : S10.ShapeCasts S1x10
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x512_S512x3072_S1024x3072_1_0_0_1_n_n_wf : DotDims.WF S1024x512 S512x3072 S1024x3072 [1] [0] [0] [1] [] []
  dot_S1024x3072_S3072x512_S1024x512_1_0_0_1_n_n_wf : DotDims.WF S1024x3072 S3072x512 S1024x512 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x3072.size a
  hwx0_0 : ∀ i : grid0.Coords, EltTy.bits .bf16 = 32 ∨ (Rect.block (s := S16384x3072) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S3072x3072.size a
  hwx0_1 : ∀ i : grid0.Coords, EltTy.bits .bf16 = 32 ∨ (Rect.block (s := S3072x3072) S512x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S3072x512.size a
  hwx0_2 : ∀ i : grid0.Coords, EltTy.bits .bf16 = 32 ∨ (Rect.block (s := S3072x512) S3072x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S512x10.size a
  hwx0_4 : ∀ i : grid0.Coords, EltTy.bits .bf16 = 32 ∨ (Rect.block (s := S512x10) S512x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x10.size a ≤ S16384x10.size a
  hwx0_6 : ∀ i : grid0.Coords, EltTy.bits .f32 = 32 ∨ (Rect.block (s := S16384x10) S1024x10.size (cc0_transform_6 i) (hinb0_6 i)).WholeWords (EltTy.packing .f32)

variable [Facts₀]

def dot_S1024x512_S512x3072_S1024x3072_1_0_0_1_n_n : DotDims S1024x512 S512x3072 S1024x3072 where
  lhsContracting := [1]
  rhsContracting := [0]
  lhsNonContracting := [0]
  rhsNonContracting := [1]
  lhsBatch := []
  rhsBatch := []
  wf := dot_S1024x512_S512x3072_S1024x3072_1_0_0_1_n_n_wf
def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3072x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x3072 : Shape := ⟨2, ![16384, 3072]⟩
abbrev S3072x3072 : Shape := ⟨2, ![3072, 3072]⟩
abbrev S512x3072 : Shape := ⟨2, ![512, 3072]⟩
abbrev S512 : Shape := ⟨1, ![512]⟩
abbrev S10x512 : Shape := ⟨2, ![10, 512]⟩
abbrev S10 : Shape := ⟨1, ![10]⟩
abbrev S3072x512 : Shape := ⟨2, ![3072, 512]⟩
abbrev S16384x512 : Shape := ⟨2, ![16384, 512]⟩
abbrev S1x512 : Shape := ⟨2, ![1, 512]⟩
abbrev S_ : Shape := ⟨0, ![]⟩
abbrev S512x10 : Shape := ⟨2, ![512, 10]⟩
abbrev S16384x10 : Shape := ⟨2, ![16384, 10]⟩
abbrev S1x10 : Shape := ⟨2, ![1, 10]⟩

abbrev nBuf : Space → Nat
  | .hbm => 20
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S512x3072, .f32⟩
  | .hbm, ⟨3, _⟩ => ⟨S512, .f32⟩
  | .hbm, ⟨4, _⟩ => ⟨S10x512, .f32⟩
  | .hbm, ⟨5, _⟩ => ⟨S10, .f32⟩
  | .hbm, ⟨6, _⟩ => ⟨S16384x3072, .f32⟩
  | .hbm, ⟨7, _⟩ => ⟨S3072x512, .f32⟩
  | .hbm, ⟨8, _⟩ => ⟨S16384x512, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S512x10, .f32⟩
  | .hbm, ⟨16, _⟩ => ⟨S16384x10, .f32⟩
  | .hbm, ⟨17, _⟩ => ⟨S1x10, .f32⟩
  | .hbm, ⟨18, _⟩ => ⟨S16384x10, .f32⟩
  | .hbm, ⟨19, _⟩ => ⟨S16384x10, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  transposes_S512x3072_S3072x512_1_0 : S512x3072.Transposes [1, 0] S3072x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S10x512_S512x10_1_0 : S10x512.Transposes [1, 0] S512x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x3072_S3072x3072_S16384x3072_1_0_0_1_n_n_wf : DotDims.WF S16384x3072 S3072x3072 S16384x3072 [1] [0] [0] [1] [] []
  dot_S16384x3072_S3072x512_S16384x512_1_0_0_1_n_n_wf : DotDims.WF S16384x3072 S3072x512 S16384x512 [1] [0] [0] [1] [] []
  dot_S16384x512_S512x10_S16384x10_1_0_0_1_n_n_wf : DotDims.WF S16384x512 S512x10 S16384x10 [1] [0] [0] [1] [] []

variable [Facts₀]

def dot_S16384x3072_S3072x3072_S16384x3072_1_0_0_1_n_n : DotDims S16384x3072 S3072x3072 S16384x3072 where
  lhsContracting := [1]
  rhsContracting := [0]
  lhsNonContracting := [0]
  rhsNonContracting := [1]
  lhsBatch := []
  rhsBatch := []
  wf := dot_S16384x3072_S3072x3072_S16384x3072_1_0_0_1_n_n_wf
def dot_S16384x3072_S3072x512_S16384x512_1_0_0_1_n_n : DotDims S16384x3072 S3072x512 S16384x512 where
  lhsContracting := [1]
  rhsContracting := [0]
  lhsNonContracting := [0]
  rhsNonContracting := [1]
  lhsBatch := []
  rhsBatch := []
  wf := dot_S16384x3072_S3072x512_S16384x512_1_0_0_1_n_n_wf
def dot_S16384x512_S512x10_S16384x10_1_0_0_1_n_n : DotDims S16384x512 S512x10 S16384x10 where
  lhsContracting := [1]
  rhsContracting := [0]
  lhsNonContracting := [0]
  rhsNonContracting := [1]
  lhsBatch := []
  rhsBatch := []
  wf := dot_S16384x512_S512x10_S16384x10_1_0_0_1_n_n_wf

class Facts : Prop extends Facts₀ where

variable [Facts]
-- ==== Proof.Pieces.lean ====
/-
  What one grid point leaves behind, as values.

  The kernel keeps a [1024, 3072] accumulator between grid points. At a point it (only at the first point of a run of
  six) zeroes the accumulator, then adds to it the product of the point's [1024, 512] block of x and [512, 3072] block
  of W, and (only at the last point of the run) reads the accumulator back and stores the head's [1024, 10] result.
  Each of the three cases ends with stores that cover the buffer whole, so what it leaves is the last store's value
  with the loads before it read back:

    first point of a run : zero + x_blk · W_blk
    a middle point       : acc  + x_blk · W_blk
    last point of a run  : acc  + x_blk · W_blk, and the head applied to that sum

  These hold for any float instance.
-/
import proofs.«107123_j23476291240731_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body starts at the origin of its buffer. -/
theorem origin : (![0, 0] : Fin 2 → Nat) = fun _ => 0 := funext fun a => by fin_cases a <;> rfl

/-- A middle point of a run: the accumulator found, plus the blocks' product. -/
theorem scratch_mid (c : Dev nD) (i : grid0.Coords) (arg2 : Memref sig .tc .vmem S1024x512 .bf16) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x10 .bf16) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x3072 .f32) (harg9 : arg9.IsWhole) (hc0 : ¬cond0_0 i) (hc1 : ¬cond0_1 i)
    (x0 : Vec F S1024x512 .bf16) (x1 : Vec F S512x3072 .bf16) (x2 : Vec F S3072x512 .bf16) (x3 : Vec F S1x512 .f32) (x4 : Vec F S512x10 .bf16) (x5 : Vec F S1x10 .f32) (xs0 : Vec F S1024x3072 .f32) :
    sout0_B_0 c i arg2 harg2 arg3 harg3 arg4 harg4 arg5 harg5 arg6 harg6 arg7 harg7 arg8 harg8 arg9 harg9 hc0 hc1 x0 x1 x2 x3 x4 x5 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero origin]
  simp only [View.readAt_eq_ld, harg2.read_unread, harg3.read_unread, harg4.read_unread, harg5.read_unread, harg6.read_unread, harg7.read_unread, harg8.read_unread, harg9.read_unread, View.ld_unit_zero (S := S1024x3072) origin, View.ld_unit_zero (S := S1024x512) origin, View.ld_unit_zero (S := S512x3072) origin, View.ld_unit_zero (S := S3072x512) origin, View.ld_unit_zero (S := S1x512) origin, View.ld_unit_zero (S := S512x10) origin, View.ld_unit_zero (S := S1x10) origin, View.ld_unit_zero (S := S1024x10) origin]

/-- The first point of a run: the zero block, plus the blocks' product. The zero block is stored and read back before the sum. -/
theorem scratch_first (c : Dev nD) (i : grid0.Coords) (arg2 : Memref sig .tc .vmem S1024x512 .bf16) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x10 .bf16) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x3072 .f32) (harg9 : arg9.IsWhole) (hc0 : cond0_0 i) (hc1 : ¬cond0_1 i)
    (x0 : Vec F S1024x512 .bf16) (x1 : Vec F S512x3072 .bf16) (x2 : Vec F S3072x512 .bf16) (x3 : Vec F S1x512 .f32) (x4 : Vec F S512x10 .bf16) (x5 : Vec F S1x10 .f32) :
    sout0_A_0 c i arg2 harg2 arg3 harg3 arg4 harg4 arg5 harg5 arg6 harg6 arg7 harg7 arg8 harg8 arg9 harg9 hc0 hc1 x0 x1 x2 x3 x4 x5 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x3072) origin, View.readCov_unit_zero (S := S1024x3072) _ origin]
  simp only [View.readAt_eq_ld, harg2.read_unread, harg3.read_unread, harg4.read_unread, harg5.read_unread, harg6.read_unread, harg7.read_unread, harg8.read_unread, harg9.read_unread, View.ld_unit_zero (S := S1024x3072) origin, View.ld_unit_zero (S := S1024x512) origin, View.ld_unit_zero (S := S512x3072) origin, View.ld_unit_zero (S := S3072x512) origin, View.ld_unit_zero (S := S1x512) origin, View.ld_unit_zero (S := S512x10) origin, View.ld_unit_zero (S := S1x10) origin, View.ld_unit_zero (S := S1024x10) origin]

/-- The last point of a run leaves in the accumulator what a middle point does. -/
theorem scratch_last (c : Dev nD) (i : grid0.Coords) (arg2 : Memref sig .tc .vmem S1024x512 .bf16) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x10 .bf16) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x3072 .f32) (harg9 : arg9.IsWhole) (hc0 : ¬cond0_0 i) (hc1 : cond0_1 i)
    (x0 : Vec F S1024x512 .bf16) (x1 : Vec F S512x3072 .bf16) (x2 : Vec F S3072x512 .bf16) (x3 : Vec F S1x512 .f32) (x4 : Vec F S512x10 .bf16) (x5 : Vec F S1x10 .f32) (xs0 : Vec F S1024x3072 .f32) :
    sout0_C_0 c i arg2 harg2 arg3 harg3 arg4 harg4 arg5 harg5 arg6 harg6 arg7 harg7 arg8 harg8 arg9 harg9 hc0 hc1 x0 x1 x2 x3 x4 x5 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero origin]
  simp only [View.readAt_eq_ld, harg2.read_unread, harg3.read_unread, harg4.read_unread, harg5.read_unread, harg6.read_unread, harg7.read_unread, harg8.read_unread, harg9.read_unread, View.ld_unit_zero (S := S1024x3072) origin, View.ld_unit_zero (S := S1024x512) origin, View.ld_unit_zero (S := S512x3072) origin, View.ld_unit_zero (S := S3072x512) origin, View.ld_unit_zero (S := S1x512) origin, View.ld_unit_zero (S := S512x10) origin, View.ld_unit_zero (S := S1x10) origin, View.ld_unit_zero (S := S1024x10) origin]

/-- The last point of a run stores the head of the accumulator it has just updated. -/
theorem out_last (c : Dev nD) (i : grid0.Coords) (arg2 : Memref sig .tc .vmem S1024x512 .bf16) (harg2 : arg2.IsWhole) (arg3 : Memref sig .tc .vmem S512x3072 .bf16) (harg3 : arg3.IsWhole) (arg4 : Memref sig .tc .vmem S3072x512 .bf16) (harg4 : arg4.IsWhole) (arg5 : Memref sig .tc .vmem S1x512 .f32) (harg5 : arg5.IsWhole) (arg6 : Memref sig .tc .vmem S512x10 .bf16) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x3072 .f32) (harg9 : arg9.IsWhole) (hc0 : ¬cond0_0 i) (hc1 : cond0_1 i)
    (x0 : Vec F S1024x512 .bf16) (x1 : Vec F S512x3072 .bf16) (x2 : Vec F S3072x512 .bf16) (x3 : Vec F S1x512 .f32) (x4 : Vec F S512x10 .bf16) (x5 : Vec F S1x10 .f32) (xs0 : Vec F S1024x3072 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 xs0 x0 x1) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero origin]
  simp only [View.readAt_eq_ld, harg2.read_unread, harg3.read_unread, harg4.read_unread, harg5.read_unread, harg6.read_unread, harg7.read_unread, harg8.read_unread, harg9.read_unread, View.ld_unit_zero (S := S1024x3072) origin, View.ld_unit_zero (S := S1024x512) origin, View.ld_unit_zero (S := S512x3072) origin, View.ld_unit_zero (S := S3072x512) origin, View.ld_unit_zero (S := S1x512) origin, View.ld_unit_zero (S := S512x10) origin, View.ld_unit_zero (S := S1x10) origin, View.ld_unit_zero (S := S1024x10) origin, View.readCov_unit_zero (S := S1024x3072) _ origin]

end Cert.KernelIdeal.Pieces

end
-- ==== Proof.Payload.lean ====
/-
  The body's two stored values at an entry, on the extended reals.

  Reading a float at the ideal instance, a change of float format is the identity, a same-shape cast is the identity, and a
  matrix product into a zero accumulator is the plain sum of products. So

    the accumulated block at (r, p) = acc[r, p] + Σ_{s < 512} xb[r, s] · wb[s, p]
    the head's block at (r, j)      = Σ_{q < 512} max (Σ_{p < 3072} acc[r, p] · A'[p, q] + a'[0, q]) 0 · B'[q, j] + b'[0, j]

  where A', B' are the transposed weights as the kernel is handed them and a', b' the biases as one-row matrices.
-/
import proofs.«107123_j23476291240731_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ### The product blockProduct: [1024, 512] by [512, 3072] -/

theorem lhs_blockProduct_0 (i : S1024x3072.Idx) (q : dot_S1024x512_S512x3072_S1024x3072_1_0_0_1_n_n.contr.Idx) :
    (dot_S1024x512_S512x3072_S1024x3072_1_0_0_1_n_n.lhsIdx i q 0).val = (i 0).val := by
  unfold DotDims.lhsIdx
  rw [dif_neg (show ¬(0 : Fin S1024x512.rank) ∈ dot_S1024x512_S512x3072_S1024x3072_1_0_0_1_n_n.lhsBatch by decide), dif_pos (show (0 : Fin S1024x512.rank) ∈ dot_S1024x512_S512x3072_S1024x3072_1_0_0_1_n_n.lhsNonContracting by decide)]
  rfl
theorem lhs_blockProduct_1 (i : S1024x3072.Idx) (q : dot_S1024x512_S512x3072_S1024x3072_1_0_0_1_n_n.contr.Idx) :
    (dot_S1024x512_S512x3072_S1024x3072_1_0_0_1_n_n.lhsIdx i q 1).val = (q ⟨0, by decide⟩).val :=
  dot_S1024x512_S512x3072_S1024x3072_1_0_0_1_n_n.lhsIdx_val_of_single rfl i q
theorem rhs_blockProduct_0 (i : S1024x3072.Idx) (q : dot_S1024x512_S512x3072_S1024x3072_1_0_0_1_n_n.contr.Idx) :
    (dot_S1024x512_S512x3072_S1024x3072_1_0_0_1_n_n.rhsIdx i q 0).val = (q ⟨0, by decide⟩).val :=
  dot_S1024x512_S512x3072_S1024x3072_1_0_0_1_n_n.rhsIdx_val_of_single rfl i q
theorem rhs_blockProduct_1 (i : S1024x3072.Idx) (q : dot_S1024x512_S512x3072_S1024x3072_1_0_0_1_n_n.contr.Idx) :
    (dot_S1024x512_S512x3072_S1024x3072_1_0_0_1_n_n.rhsIdx i q 1).val = (i 1).val := by
  unfold DotDims.rhsIdx
  rw [dif_neg (show ¬(1 : Fin S512x3072.rank) ∈ dot_S1024x512_S512x3072_S1024x3072_1_0_0_1_n_n.rhsBatch by decide), dif_pos (show (1 : Fin S512x3072.rank) ∈ dot_S1024x512_S512x3072_S1024x3072_1_0_0_1_n_n.rhsNonContracting by decide)]
  rfl

/-- Into a zero accumulator, entry (r, p) of the product is the row of the left factor against the column of the right. -/
theorem blockProduct_apply {φ₁ φ₂ : FTy} (a : FVec Ideal S1024x512 φ₁) (b : FVec Ideal S512x3072 φ₂) (r : Fin 1024) (p : Fin 3072) :
    matmul dot_S1024x512_S512x3072_S1024x3072_1_0_0_1_n_n none a b (constant (F := Ideal) S1024x3072 .f32 0x00000000#32) (ix2 r p)
      = ∑ s : Fin 512, a (ix2 r s) * b (ix2 s p) := by
  simp only [matmul]
  rw [Ideal.matmul_constant_zero_apply, ← Equiv.sum_comp (contrEquiv1 dot_S1024x512_S512x3072_S1024x3072_1_0_0_1_n_n 512 rfl rfl).symm]
  refine Finset.sum_congr rfl fun k _ => ?_
  have hk := contrEquiv1_symm_val dot_S1024x512_S512x3072_S1024x3072_1_0_0_1_n_n 512 rfl rfl k
  have el : dot_S1024x512_S512x3072_S1024x3072_1_0_0_1_n_n.lhsIdx (ix2 r p) ((contrEquiv1 dot_S1024x512_S512x3072_S1024x3072_1_0_0_1_n_n 512 rfl rfl).symm k) = ix2 r k := funext fun a => Fin.ext (by
    match a with
    | ⟨0, _⟩ => exact lhs_blockProduct_0 _ _
    | ⟨1, _⟩ => exact (lhs_blockProduct_1 _ _).trans hk)
  have er : dot_S1024x512_S512x3072_S1024x3072_1_0_0_1_n_n.rhsIdx (ix2 r p) ((contrEquiv1 dot_S1024x512_S512x3072_S1024x3072_1_0_0_1_n_n 512 rfl rfl).symm k) = ix2 k p := funext fun a => Fin.ext (by
    match a with
    | ⟨0, _⟩ => exact (rhs_blockProduct_0 _ _).trans hk
    | ⟨1, _⟩ => exact rhs_blockProduct_1 _ _)
  rw [el, er]

/-! ### The product firstLayer: [1024, 3072] by [3072, 512] -/

theorem lhs_firstLayer_0 (i : S1024x512.Idx) (q : dot_S1024x3072_S3072x512_S1024x512_1_0_0_1_n_n.contr.Idx) :
    (dot_S1024x3072_S3072x512_S1024x512_1_0_0_1_n_n.lhsIdx i q 0).val = (i 0).val := by
  unfold DotDims.lhsIdx
  rw [dif_neg (show ¬(0 : Fin S1024x3072.rank) ∈ dot_S1024x3072_S3072x512_S1024x512_1_0_0_1_n_n.lhsBatch by decide), dif_pos (show (0 : Fin S1024x3072.rank) ∈ dot_S1024x3072_S3072x512_S1024x512_1_0_0_1_n_n.lhsNonContracting by decide)]
  rfl
theorem lhs_firstLayer_1 (i : S1024x512.Idx) (q : dot_S1024x3072_S3072x512_S1024x512_1_0_0_1_n_n.contr.Idx) :
    (dot_S1024x3072_S3072x512_S1024x512_1_0_0_1_n_n.lhsIdx i q 1).val = (q ⟨0, by decide⟩).val :=
  dot_S1024x3072_S3072x512_S1024x512_1_0_0_1_n_n.lhsIdx_val_of_single rfl i q
theorem rhs_firstLayer_0 (i : S1024x512.Idx) (q : dot_S1024x3072_S3072x512_S1024x512_1_0_0_1_n_n.contr.Idx) :
    (dot_S1024x3072_S3072x512_S1024x512_1_0_0_1_n_n.rhsIdx i q 0).val = (q ⟨0, by decide⟩).val :=
  dot_S1024x3072_S3072x512_S1024x512_1_0_0_1_n_n.rhsIdx_val_of_single rfl i q
theorem rhs_firstLayer_1 (i : S1024x512.Idx) (q : dot_S1024x3072_S3072x512_S1024x512_1_0_0_1_n_n.contr.Idx) :
    (dot_S1024x3072_S3072x512_S1024x512_1_0_0_1_n_n.rhsIdx i q 1).val = (i 1).val := by
  unfold DotDims.rhsIdx
  rw [dif_neg (show ¬(1 : Fin S3072x512.rank) ∈ dot_S1024x3072_S3072x512_S1024x512_1_0_0_1_n_n.rhsBatch by decide), dif_pos (show (1 : Fin S3072x512.rank) ∈ dot_S1024x3072_S3072x512_S1024x512_1_0_0_1_n_n.rhsNonContracting by decide)]
  rfl

/-- Into a zero accumulator, entry (r, p) of the product is the row of the left factor against the column of the right. -/
theorem firstLayer_apply {φ₁ φ₂ : FTy} (a : FVec Ideal S1024x3072 φ₁) (b : FVec Ideal S3072x512 φ₂) (r : Fin 1024) (p : Fin 512) :
    matmul dot_S1024x3072_S3072x512_S1024x512_1_0_0_1_n_n none a b (constant (F := Ideal) S1024x512 .f32 0x00000000#32) (ix2 r p)
      = ∑ s : Fin 3072, a (ix2 r s) * b (ix2 s p) := by
  simp only [matmul]
  rw [Ideal.matmul_constant_zero_apply, ← Equiv.sum_comp (contrEquiv1 dot_S1024x3072_S3072x512_S1024x512_1_0_0_1_n_n 3072 rfl rfl).symm]
  refine Finset.sum_congr rfl fun k _ => ?_
  have hk := contrEquiv1_symm_val dot_S1024x3072_S3072x512_S1024x512_1_0_0_1_n_n 3072 rfl rfl k
  have el : dot_S1024x3072_S3072x512_S1024x512_1_0_0_1_n_n.lhsIdx (ix2 r p) ((contrEquiv1 dot_S1024x3072_S3072x512_S1024x512_1_0_0_1_n_n 3072 rfl rfl).symm k) = ix2 r k := funext fun a => Fin.ext (by
    match a with
    | ⟨0, _⟩ => exact lhs_firstLayer_0 _ _
    | ⟨1, _⟩ => exact (lhs_firstLayer_1 _ _).trans hk)
  have er : dot_S1024x3072_S3072x512_S1024x512_1_0_0_1_n_n.rhsIdx (ix2 r p) ((contrEquiv1 dot_S1024x3072_S3072x512_S1024x512_1_0_0_1_n_n 3072 rfl rfl).symm k) = ix2 k p := funext fun a => Fin.ext (by
    match a with
    | ⟨0, _⟩ => exact (rhs_firstLayer_0 _ _).trans hk
    | ⟨1, _⟩ => exact rhs_firstLayer_1 _ _)
  rw [el, er]

/-! ### The product secondLayer: [1024, 512] by [512, 10] -/

theorem lhs_secondLayer_0 (i : S1024x10.Idx) (q : dot_S1024x512_S512x10_S1024x10_1_0_0_1_n_n.contr.Idx) :
    (dot_S1024x512_S512x10_S1024x10_1_0_0_1_n_n.lhsIdx i q 0).val = (i 0).val := by
  unfold DotDims.lhsIdx
  rw [dif_neg (show ¬(0 : Fin S1024x512.rank) ∈ dot_S1024x512_S512x10_S1024x10_1_0_0_1_n_n.lhsBatch by decide), dif_pos (show (0 : Fin S1024x512.rank) ∈ dot_S1024x512_S512x10_S1024x10_1_0_0_1_n_n.lhsNonContracting by decide)]
  rfl
theorem lhs_secondLayer_1 (i : S1024x10.Idx) (q : dot_S1024x512_S512x10_S1024x10_1_0_0_1_n_n.contr.Idx) :
    (dot_S1024x512_S512x10_S1024x10_1_0_0_1_n_n.lhsIdx i q 1).val = (q ⟨0, by decide⟩).val :=
  dot_S1024x512_S512x10_S1024x10_1_0_0_1_n_n.lhsIdx_val_of_single rfl i q
theorem rhs_secondLayer_0 (i : S1024x10.Idx) (q : dot_S1024x512_S512x10_S1024x10_1_0_0_1_n_n.contr.Idx) :
    (dot_S1024x512_S512x10_S1024x10_1_0_0_1_n_n.rhsIdx i q 0).val = (q ⟨0, by decide⟩).val :=
  dot_S1024x512_S512x10_S1024x10_1_0_0_1_n_n.rhsIdx_val_of_single rfl i q
theorem rhs_secondLayer_1 (i : S1024x10.Idx) (q : dot_S1024x512_S512x10_S1024x10_1_0_0_1_n_n.contr.Idx) :
    (dot_S1024x512_S512x10_S1024x10_1_0_0_1_n_n.rhsIdx i q 1).val = (i 1).val := by
  unfold DotDims.rhsIdx
  rw [dif_neg (show ¬(1 : Fin S512x10.rank) ∈ dot_S1024x512_S512x10_S1024x10_1_0_0_1_n_n.rhsBatch by decide), dif_pos (show (1 : Fin S512x10.rank) ∈ dot_S1024x512_S512x10_S1024x10_1_0_0_1_n_n.rhsNonContracting by decide)]
  rfl

/-- Into a zero accumulator, entry (r, p) of the product is the row of the left factor against the column of the right. -/
theorem secondLayer_apply {φ₁ φ₂ : FTy} (a : FVec Ideal S1024x512 φ₁) (b : FVec Ideal S512x10 φ₂) (r : Fin 1024) (p : Fin 10) :
    matmul dot_S1024x512_S512x10_S1024x10_1_0_0_1_n_n none a b (constant (F := Ideal) S1024x10 .f32 0x00000000#32) (ix2 r p)
      = ∑ s : Fin 512, a (ix2 r s) * b (ix2 s p) := by
  simp only [matmul]
  rw [Ideal.matmul_constant_zero_apply, ← Equiv.sum_comp (contrEquiv1 dot_S1024x512_S512x10_S1024x10_1_0_0_1_n_n 512 rfl rfl).symm]
  refine Finset.sum_congr rfl fun k _ => ?_
  have hk := contrEquiv1_symm_val dot_S1024x512_S512x10_S1024x10_1_0_0_1_n_n 512 rfl rfl k
  have el : dot_S1024x512_S512x10_S1024x10_1_0_0_1_n_n.lhsIdx (ix2 r p) ((contrEquiv1 dot_S1024x512_S512x10_S1024x10_1_0_0_1_n_n 512 rfl rfl).symm k) = ix2 r k := funext fun a => Fin.ext (by
    match a with
    | ⟨0, _⟩ => exact lhs_secondLayer_0 _ _
    | ⟨1, _⟩ => exact (lhs_secondLayer_1 _ _).trans hk)
  have er : dot_S1024x512_S512x10_S1024x10_1_0_0_1_n_n.rhsIdx (ix2 r p) ((contrEquiv1 dot_S1024x512_S512x10_S1024x10_1_0_0_1_n_n 512 rfl rfl).symm k) = ix2 k p := funext fun a => Fin.ext (by
    match a with
    | ⟨0, _⟩ => exact (rhs_secondLayer_0 _ _).trans hk
    | ⟨1, _⟩ => exact rhs_secondLayer_1 _ _)
  rw [el, er]

/-! ### The two stored values -/

/-- What a point adds to the accumulator: the block of x against the block of W. -/
theorem accumulate_apply (acc : Vec Ideal S1024x3072 .f32) (xb : Vec Ideal S1024x512 .bf16) (wb : Vec Ideal S512x3072 .bf16)
    (r : Fin 1024) (p : Fin 3072) :
    k0_pay2 (F := Ideal) acc xb wb (ix2 r p) = acc (ix2 r p) + ∑ s : Fin 512, xb (ix2 r s) * wb (ix2 s p) := by
  unfold k0_pay2
  simp only [shapeCast_self]
  rw [addf_apply, blockProduct_apply]

/-- The zero block a run of points starts from reads the zero word everywhere. -/
theorem reset_apply (i : S1024x3072.Idx) : k0_pay1 (F := Ideal) i = Ideal.ofBits .f32 0x00000000#32 := by
  unfold k0_pay1
  simp only [shapeCast_self]
  rfl

/-- The head on an accumulated block. -/
theorem head_apply (acc : Vec Ideal S1024x3072 .f32) (A' : Vec Ideal S3072x512 .bf16) (a' : Vec Ideal S1x512 .f32)
    (B' : Vec Ideal S512x10 .bf16) (b' : Vec Ideal S1x10 .f32) (r : Fin 1024) (j : Fin 10) :
    k0_pay3 (F := Ideal) acc A' a' B' b' (ix2 r j)
      = (∑ q : Fin 512, max ((∑ p : Fin 3072, acc (ix2 r p) * A' (ix2 p q)) + a' (ix2 (0 : Fin 1) q)) (Ideal.ofBits .f32 0x00000000#32)
          * B' (ix2 q j)) + b' (ix2 (0 : Fin 1) j) := by
  unfold k0_pay3
  simp only [shapeCast_self]
  rw [addf_apply, secondLayer_apply, broadcastTo_1b_ab_apply]
  refine congrArg (· + b' (ix2 (0 : Fin 1) j)) (Finset.sum_congr rfl fun q _ => ?_)
  rw [truncf_apply, maximumf_apply, addf_apply, firstLayer_apply, broadcastTo_1b_ab_apply, broadcast_apply]
  rfl

end Cert.KernelIdeal.Payload

end
-- ==== Proof.Blocks.lean ====
/-
  What the region finds in the arrays it stages, and the block of each that a grid point reads.

  Before the region the host changes float formats (the identity on extended reals), transposes the two weight
  matrices and views the two biases as one-row matrices. Grid point t = 6·b + k (b < 16 the row tile, k < 6 the
  contraction tile) reads rows 1024·b … of x at columns 512·k …, rows 512·k … of W, and the other four arrays whole.
-/
import proofs.«107123_j23476291240731_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ### The arrays at region entry -/

theorem entry_x (c : Dev nD) : (V m c main_v0 : S16384x3072.Idx → EReal) = m ((c.tc : Thread nD τ).loc main_arg0) := by
  have e : (V m c main_v0 : S16384x3072.Idx → EReal) = (truncf (F := Ideal) .bf16 (m ((c.tc : Thread nD τ).loc main_arg0) : FVec Ideal S16384x3072 .f32) bitsLt_bf16_f32 : FVec Ideal S16384x3072 .bf16) := by
    dsimp only [V, hostOps0]; after_results <;> rfl
  rw [e]; rfl

theorem entry_W (c : Dev nD) : (V m c main_v1 : S3072x3072.Idx → EReal) = m ((c.tc : Thread nD τ).loc main_arg1) := by
  have e : (V m c main_v1 : S3072x3072.Idx → EReal) = (truncf (F := Ideal) .bf16 (m ((c.tc : Thread nD τ).loc main_arg1) : FVec Ideal S3072x3072 .f32) bitsLt_bf16_f32 : FVec Ideal S3072x3072 .bf16) := by
    dsimp only [V, hostOps0]; after_results <;> rfl
  rw [e]; rfl

theorem entry_A (c : Dev nD) (p : Fin 3072) (q : Fin 512) :
    (V m c main_v3 : S3072x512.Idx → EReal) (ix2 p q) = m ((c.tc : Thread nD τ).loc main_arg2) (ix2 q p) := by
  have e : (V m c main_v3 : S3072x512.Idx → EReal)
      = (truncf (F := Ideal) .bf16 (transpose S3072x512 [1, 0] (m ((c.tc : Thread nD τ).loc main_arg2) : FVec Ideal S512x3072 .f32) transposes_S512x3072_S3072x512_1_0 : FVec Ideal S3072x512 .f32) bitsLt_bf16_f32 : FVec Ideal S3072x512 .bf16) := by
    dsimp only [V, hostOps0]; after_results <;> rfl
  rw [e, truncf_apply]
  exact transpose_ix2_apply _ _ p q

theorem entry_B (c : Dev nD) (q : Fin 512) (j : Fin 10) :
    (V m c main_v5 : S512x10.Idx → EReal) (ix2 q j) = m ((c.tc : Thread nD τ).loc main_arg4) (ix2 j q) := by
  have e : (V m c main_v5 : S512x10.Idx → EReal)
      = (truncf (F := Ideal) .bf16 (transpose S512x10 [1, 0] (m ((c.tc : Thread nD τ).loc main_arg4) : FVec Ideal S10x512 .f32) transposes_S10x512_S512x10_1_0 : FVec Ideal S512x10 .f32) bitsLt_bf16_f32 : FVec Ideal S512x10 .bf16) := by
    dsimp only [V, hostOps0]; after_results <;> rfl
  rw [e, truncf_apply]
  exact transpose_ix2_apply _ _ q j

theorem entry_a (c : Dev nD) (q : Fin 512) :
    (V m c main_v6 : S1x512.Idx → EReal) (ix2 (0 : Fin 1) q) = m ((c.tc : Thread nD τ).loc main_arg3) (ix1 q) := by
  have e : (V m c main_v6 : S1x512.Idx → EReal)
      = shapeCast S1x512 (m ((c.tc : Thread nD τ).loc main_arg3)) shapeCasts_S512_S1x512 := by
    dsimp only [V, hostOps0]; after_results <;> rfl
  rw [e]
  exact shapeCast_a_1a_apply _ _ 0 q

theorem entry_b (c : Dev nD) (j : Fin 10) :
    (V m c main_v7 : S1x10.Idx → EReal) (ix2 (0 : Fin 1) j) = m ((c.tc : Thread nD τ).loc main_arg5) (ix1 j) := by
  have e : (V m c main_v7 : S1x10.Idx → EReal)
      = shapeCast S1x10 (m ((c.tc : Thread nD τ).loc main_arg5)) shapeCasts_S10_S1x10 := by
    dsimp only [V, hostOps0]; after_results <;> rfl
  rw [e]
  exact shapeCast_a_1a_apply _ _ 0 j

/-! ### The block index of each window at a grid point, decided over the grid -/

theorem index_x : ∀ t : Fin cfg0.N, win0_0.index t (0 : Fin 2) = t.val / 6 ∧ win0_0.index t (1 : Fin 2) = t.val % 6 :=
  (by decide +kernel : ∀ t : Fin grid0.N, win0_0.index t (0 : Fin 2) = t.val / 6 ∧ win0_0.index t (1 : Fin 2) = t.val % 6)
theorem index_W : ∀ t : Fin cfg0.N, win0_1.index t (0 : Fin 2) = t.val % 6 ∧ win0_1.index t (1 : Fin 2) = 0 :=
  (by decide +kernel : ∀ t : Fin grid0.N, win0_1.index t (0 : Fin 2) = t.val % 6 ∧ win0_1.index t (1 : Fin 2) = 0)
theorem index_A : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_a : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_B : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_b : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_out : ∀ t : Fin cfg0.N, win0_6.index t (0 : Fin 2) = t.val / 6 ∧ win0_6.index t (1 : Fin 2) = 0 :=
  (by decide +kernel : ∀ t : Fin grid0.N, win0_6.index t (0 : Fin 2) = t.val / 6 ∧ win0_6.index t (1 : Fin 2) = 0)

/-! ### The blocks read at an entry: a block's coordinate in its array is index × size + the coordinate inside the block -/

/-- The block of x at point t: rows 1024·(t / 6) …, columns 512·(t % 6) …. -/
theorem xblk_apply (c : Dev nD) (t : Fin cfg0.N) (r : Fin 1024) (s : Fin 512) (R : Fin 16384) (S : Fin 3072)
    (hR : R.val = 1024 * (t.val / 6) + r.val) (hS : S.val = 512 * (t.val % 6) + s.val) :
    (iblk m c 0 t : Vec Ideal S1024x512 .bf16) (ix2 r s) = m ((c.tc : Thread nD τ).loc main_arg0) (ix2 R S) := by
  refine Eq.trans ?_ (congrFun (entry_x m c) (ix2 R S))
  unfold iblk
  rw [View.read_apply]
  show V m c main_v0 _ = V m c main_v0 _
  congr 1
  funext a; apply Fin.ext
  obtain ⟨e0, e1⟩ := index_x t
  match a with
  | ⟨0, _⟩ => show win0_0.index t (0 : Fin 2) * 1024 + 1 * r.val = R.val; omega
  | ⟨1, _⟩ => show win0_0.index t (1 : Fin 2) * 512 + 1 * s.val = S.val; omega

/-- The block of W at point t: rows 512·(t % 6) …, every column. -/
theorem wblk_apply (c : Dev nD) (t : Fin cfg0.N) (s : Fin 512) (p : Fin 3072) (S : Fin 3072) (hS : S.val = 512 * (t.val % 6) + s.val) :
    (iblk m c 1 t : Vec Ideal S512x3072 .bf16) (ix2 s p) = m ((c.tc : Thread nD τ).loc main_arg1) (ix2 S p) := by
  refine Eq.trans ?_ (congrFun (entry_W m c) (ix2 S p))
  unfold iblk
  rw [View.read_apply]
  show V m c main_v1 _ = V m c main_v1 _
  congr 1
  funext a; apply Fin.ext
  obtain ⟨e0, e1⟩ := index_W t
  match a with
  | ⟨0, _⟩ => show win0_1.index t (0 : Fin 2) * 512 + 1 * s.val = S.val; omega
  | ⟨1, _⟩ => show win0_1.index t (1 : Fin 2) * 3072 + 1 * p.val = p.val; omega

/-- The first layer's weights, whole at every point, transposed. -/
theorem Ablk_apply (c : Dev nD) (t : Fin cfg0.N) (p : Fin 3072) (q : Fin 512) :
    (iblk m c 2 t : Vec Ideal S3072x512 .bf16) (ix2 p q) = m ((c.tc : Thread nD τ).loc main_arg2) (ix2 q p) := by
  refine Eq.trans ?_ (entry_A m c p q)
  unfold iblk
  rw [View.read_apply]
  show V m c main_v3 _ = V m c main_v3 _
  congr 1
  funext a; apply Fin.ext
  obtain ⟨e0, e1⟩ := index_A t
  match a with
  | ⟨0, _⟩ => show win0_2.index t (0 : Fin 2) * 3072 + 1 * p.val = p.val; omega
  | ⟨1, _⟩ => show win0_2.index t (1 : Fin 2) * 512 + 1 * q.val = q.val; omega

/-- The first layer's bias, whole at every point, as one row. -/
theorem ablk_apply (c : Dev nD) (t : Fin cfg0.N) (q : Fin 512) :
    (iblk m c 3 t : Vec Ideal S1x512 .f32) (ix2 (0 : Fin 1) q) = m ((c.tc : Thread nD τ).loc main_arg3) (ix1 q) := by
  refine Eq.trans ?_ (entry_a m c q)
  unfold iblk
  rw [View.read_apply]
  show V m c main_v6 _ = V m c main_v6 _
  congr 1
  funext a; apply Fin.ext
  obtain ⟨e0, e1⟩ := index_a t
  match a with
  | ⟨0, _⟩ => show win0_3.index t (0 : Fin 2) * 1 + 1 * 0 = 0; omega
  | ⟨1, _⟩ => show win0_3.index t (1 : Fin 2) * 512 + 1 * q.val = q.val; omega

/-- The second layer's weights, whole at every point, transposed. -/
theorem Bblk_apply (c : Dev nD) (t : Fin cfg0.N) (q : Fin 512) (j : Fin 10) :
    (iblk m c 4 t : Vec Ideal S512x10 .bf16) (ix2 q j) = m ((c.tc : Thread nD τ).loc main_arg4) (ix2 j q) := by
  refine Eq.trans ?_ (entry_B m c q j)
  unfold iblk
  rw [View.read_apply]
  show V m c main_v5 _ = V m c main_v5 _
  congr 1
  funext a; apply Fin.ext
  obtain ⟨e0, e1⟩ := index_B t
  match a with
  | ⟨0, _⟩ => show win0_4.index t (0 : Fin 2) * 512 + 1 * q.val = q.val; omega
  | ⟨1, _⟩ => show win0_4.index t (1 : Fin 2) * 10 + 1 * j.val = j.val; omega

/-- The second layer's bias, whole at every point, as one row. -/
theorem bblk_apply (c : Dev nD) (t : Fin cfg0.N) (j : Fin 10) :
    (iblk m c 5 t : Vec Ideal S1x10 .f32) (ix2 (0 : Fin 1) j) = m ((c.tc : Thread nD τ).loc main_arg5) (ix1 j) := by
  refine Eq.trans ?_ (entry_b m c j)
  unfold iblk
  rw [View.read_apply]
  show V m c main_v7 _ = V m c main_v7 _
  congr 1
  funext a; apply Fin.ext
  obtain ⟨e0, e1⟩ := index_b t
  match a with
  | ⟨0, _⟩ => show win0_5.index t (0 : Fin 2) * 1 + 1 * 0 = 0; omega
  | ⟨1, _⟩ => show win0_5.index t (1 : Fin 2) * 10 + 1 * j.val = j.val; omega

end Cert.KernelIdeal.Blocks

end
-- ==== Proof.LibSums.lean ====
/-
  Finite sums over a flat index read through quotient and remainder.

  A position q below a·b is the pair (q / b, q % b). A sum over the flat positions that meet a condition on the pair is
  the double sum over the pairs that meet it; a sum over all flat positions is the sum over tiles of the sum inside a tile.
  Stated for any commutative additive monoid and any extents.
-/
import Idealize.ShloMosaic.Lib.ValueIdx

noncomputable section

open scoped BigOperators

namespace Cert.LibSums

/-- The quotient of a flat position by the inner extent, as the outer coordinate. -/
def hi {N a b : Nat} (hN : N = a * b) (q : Fin N) : Fin a :=
  ⟨q.val / b, by have := q.isLt; subst hN; exact Nat.div_lt_of_lt_mul (by have h := Nat.mul_comm a b; omega)⟩

/-- The remainder of a flat position by the inner extent, as the inner coordinate. -/
def lo {N : Nat} (b : Nat) (hb : 0 < b) (q : Fin N) : Fin b := ⟨q.val % b, Nat.mod_lt _ hb⟩

/-- The flat position of a pair. -/
def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

/-- The pair of a flat position as an equivalence between the flat positions below `a·b` and the pairs; its inverse is
`flat`. The round trips are `q / b · b + q % b = q`, `(k·b + p) / b = k` and `(k·b + p) % b = p` for `p < b`. -/
def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

/-- A sum over the flat positions whose pair meets `P` is the double sum over the pairs that meet `P`. -/
theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

/-- A sum over all flat positions is the sum over tiles of the sum inside each tile. -/
theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.Perceptron.lean ====
/-
  A dense layer followed by a two-layer perceptron head, written index by index on the extended reals.

  For x : [16384, 3072], W : [3072, 3072], A : [512, 3072], a : [512], B : [10, 512], b : [10]:

    hidden r p = Σ_{n < 3072} x[r, n] · W[n, p]
    dense  r q = max (Σ_{p < 3072} hidden r p · A[q, p] + a[q]) 0
    logits r j = Σ_{q < 512} dense r q · B[j, q] + b[j]

  The zero of the rectifier is kept as the f32 word it is written with on both sides, so it is never evaluated.

  The one law used between the two arrangements of the first contraction: a sum over 3072 = 6 · 512 positions is the sum
  over six tiles of the sum inside each tile of 512. It is an identity of a commutative monoid (addition on the extended
  reals is associative and commutative, infinities included), so no finiteness is asked of the entries.
-/
import Idealize.ShloMosaic.Lib.ValueIdx
import Idealize.ShloMosaic.PureOps.Ideal
import proofs.«107123_j23476291240731_1_alg».proof.Proof.LibSums

noncomputable section

open scoped BigOperators

namespace Cert.Perceptron

open Idealize.ShloMosaic Idealize.ShloMosaic.ValueIdx

/-- A matrix of extended reals of literal extents. -/
abbrev Mat (a b : Nat) : Type := (⟨2, ![a, b]⟩ : Shape).Idx → EReal
/-- A vector of extended reals of literal extent. -/
abbrev Row (a : Nat) : Type := (⟨1, ![a]⟩ : Shape).Idx → EReal

/-- The rectifier's threshold: the f32 word of +0.0, as both programs write it. -/
abbrev thr : EReal := Ideal.ofBits .f32 0x00000000#32

/-- The dense layer: row r of x against column p of W. -/
def hidden (x : Mat 16384 3072) (W : Mat 3072 3072) (r : Fin 16384) (p : Fin 3072) : EReal :=
  ∑ n : Fin 3072, x (ix2 r n) * W (ix2 n p)

/-- The first layer of the head: the hidden row against row q of A, plus the bias, rectified. -/
def dense (x : Mat 16384 3072) (W : Mat 3072 3072) (A : Mat 512 3072) (a : Row 512) (r : Fin 16384) (q : Fin 512) : EReal :=
  max ((∑ p : Fin 3072, hidden x W r p * A (ix2 q p)) + a (ix1 q)) thr

/-- The second layer: the rectified row against row j of B, plus the bias. -/
def logits (x : Mat 16384 3072) (W : Mat 3072 3072) (A : Mat 512 3072) (a : Row 512) (B : Mat 10 512) (b : Row 10) :
    Mat 16384 10 := fun j =>
  (∑ q : Fin 512, dense x W A a (j 0) q * B (ix2 (j 1) q)) + b (ix1 (j 1))

/-- 3072 positions are six tiles of 512. -/
theorem tiles : 3072 = 6 * 512 := by norm_num

/-- Position s of tile k among the 3072. -/
abbrev pos (k : Fin 6) (s : Fin 512) : Fin 3072 := LibSums.flat tiles k s

theorem pos_val (k : Fin 6) (s : Fin 512) : (pos k s).val = k.val * 512 + s.val := rfl

/-- The dense layer's contraction, tile by tile. -/
theorem hidden_tiles (x : Mat 16384 3072) (W : Mat 3072 3072) (r : Fin 16384) (p : Fin 3072) :
    hidden x W r p = ∑ k : Fin 6, ∑ s : Fin 512, x (ix2 r (pos k s)) * W (ix2 (pos k s) p) :=
  LibSums.sum_tiles tiles fun n => x (ix2 r n) * W (ix2 n p)

end Cert.Perceptron

end
-- ==== Proof.Logits.lean ====
/-
  The kernel's result array is the perceptron head on the dense layer.

  The grid has 96 points, t = 6·b + k: sixteen row tiles b of 1024 rows, each a run of six points k over the 512-wide
  tiles of the first contraction. Within a run the accumulator starts from the zero block at k = 0 and gains one
  tile's partial product per point, so after the run's last point its entry (r, p) is zero plus the six partial sums,
  which is the whole contraction Σ_{n < 3072} x[1024·b + r, n] · W[n, p] (six tiles of 512 are the 3072 positions).
  Only the last point of a run writes a block back: rows 1024·b … of the result, the head applied to the accumulator.
  The sixteen written blocks tile the result array.
-/
import proofs.«107123_j23476291240731_1_alg».proof.Proof.Gen.KernelIdeal.Value
import proofs.«107123_j23476291240731_1_alg».proof.Proof.Pieces
import proofs.«107123_j23476291240731_1_alg».proof.Proof.Payload
import proofs.«107123_j23476291240731_1_alg».proof.Proof.Blocks
import proofs.«107123_j23476291240731_1_alg».proof.Proof.Perceptron

set_option maxRecDepth 16384

noncomputable section

open scoped BigOperators

namespace Cert.KernelIdeal.Logits

open Cert.KernelIdeal Cert.KernelIdeal.Gen Idealize.ShloMosaic Idealize.ShloMosaic.TcCoe Idealize.ShloMosaic.ValueIdx Idealize.SL.Sem
open Idealize.ShloMosaic.Pipeline (Dat)
open Cert.Perceptron

variable (m : (ℓ : Loc nD τ sig) → Buf (Elt Ideal) ℓ) (ρ : Dev nD → PrngReg)

/-! ### The six arguments, and the result they determine -/

abbrev argX (c : Dev nD) : Mat 16384 3072 := m ((c.tc : Thread nD τ).loc main_arg0)
abbrev argW (c : Dev nD) : Mat 3072 3072 := m ((c.tc : Thread nD τ).loc main_arg1)
abbrev argA (c : Dev nD) : Mat 512 3072 := m ((c.tc : Thread nD τ).loc main_arg2)
abbrev arga (c : Dev nD) : Row 512 := m ((c.tc : Thread nD τ).loc main_arg3)
abbrev argB (c : Dev nD) : Mat 10 512 := m ((c.tc : Thread nD τ).loc main_arg4)
abbrev argb (c : Dev nD) : Row 10 := m ((c.tc : Thread nD τ).loc main_arg5)

/-- What the result array ends holding. -/
abbrev result (c : Dev nD) : Buf (Elt Ideal) ((c.tc : Thread nD τ).loc main_v8) :=
  logits (argX m c) (argW m c) (argA m c) (arga m c) (argB m c) (argb m c)

/-! ### One point's step on the accumulator -/

/-- At the first point of a run the step ignores what the accumulator held. -/
theorem step_first (c : Dev nD) (n : ℕ) (h : n < cfg0.N) (h0 : n % 6 = 0) (acc : Vec Ideal S1024x3072 .f32) :
    Value.scAt0_0 m c n h acc = k0_pay2 (k0_pay1 (F := Ideal)) (iblk m c 0 (⟨n, h⟩ : Fin cfg0.N)) (iblk m c 1 (⟨n, h⟩ : Fin cfg0.N)) := by
  have h1 : ¬n % 6 = 5 := by omega
  unfold Value.scAt0_0
  rw [dif_pos h0, dif_neg h1]
  exact Pieces.scratch_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N))

/-- At every other point it adds to what the accumulator held. -/
theorem step_later (c : Dev nD) (n : ℕ) (h : n < cfg0.N) (h0 : ¬n % 6 = 0) (acc : Vec Ideal S1024x3072 .f32) :
    Value.scAt0_0 m c n h acc = k0_pay2 acc (iblk m c 0 (⟨n, h⟩ : Fin cfg0.N)) (iblk m c 1 (⟨n, h⟩ : Fin cfg0.N)) := by
  unfold Value.scAt0_0
  rw [dif_neg h0]
  by_cases h1 : n % 6 = 5
  · rw [dif_pos h1]
    exact Pieces.scratch_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) acc
  · rw [dif_neg h1]
    exact Pieces.scratch_mid c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) acc

/-- The block of x a point reads, at its literal type. -/
abbrev xblk (c : Dev nD) (t : Fin cfg0.N) : Vec Ideal S1024x512 .bf16 := iblk m c 0 t
/-- The block of W a point reads, at its literal type. -/
abbrev wblk (c : Dev nD) (t : Fin cfg0.N) : Vec Ideal S512x3072 .bf16 := iblk m c 1 t

/-- What point n adds at an entry: its block of x against its block of W. (Past the grid, nothing: never used.) -/
def addend (c : Dev nD) (n : ℕ) (i : S1024x3072.Idx) : EReal :=
  if h : n < cfg0.N then ∑ s : Fin 512, xblk m c (⟨n, h⟩ : Fin cfg0.N) (ix2 (i 0) s) * wblk m c (⟨n, h⟩ : Fin cfg0.N) (ix2 s (i 1))
  else 0

/-- The accumulator after the last point of a run: the zero word plus the six points' addends. -/
theorem scratch_after_run (c : Dev nD) (t : Fin cfg0.N) (h5 : t.val % 6 = 5) (i : S1024x3072.Idx) :
    (outsAt0 m c t.val t.isLt).2 i
      = Ideal.ofBits .f32 0x00000000#32 + ∑ k ∈ Finset.range 6, addend m c (6 * (t.val / 6) + k) i := by
  rw [Value.soutsAt0_0_eq m c t]
  have hrun := Pipeline.accAt_add_apply (N := cfg0.N) (ι := S1024x3072.Idx) (β := EReal)
    (fun n h => Value.scAt0_0 m c n h (VS0_0.read (Elt Ideal) VS0_0.junk)) (Value.scAt0_0 m c)
    (fun _ => Ideal.ofBits .f32 0x00000000#32) (addend m c) (6 * (t.val / 6)) 5
    (fun h i => by
      obtain ⟨r, p, rfl⟩ : ∃ (r : Fin 1024) (p : Fin 3072), i = ix2 r p := ⟨i 0, i 1, eq_ix2 i⟩
      show Value.scAt0_0 m c (6 * (t.val / 6)) h _ (ix2 r p) = _
      rw [step_first m c _ h (Nat.mul_mod_right 6 _), Payload.accumulate_apply, Payload.reset_apply]
      unfold addend
      rw [dif_pos h])
    (fun n h acc i hb he => by
      obtain ⟨r, p, rfl⟩ : ∃ (r : Fin 1024) (p : Fin 3072), i = ix2 r p := ⟨i 0, i 1, eq_ix2 i⟩
      rw [step_later m c n h (by omega), Payload.accumulate_apply]
      unfold addend
      rw [dif_pos h])
    (t.val % 6) (by omega) (by have h1 := t.isLt; have h2 := Nat.div_add_mod t.val 6; omega) i
  rw [hrun, h5]

/-- Point 6·b + k adds tile k of the contraction of row 1024·b + r of x with column p of W. -/
theorem addend_eq (c : Dev nD) (b : ℕ) (hb : b < 16) (k : Fin 6) (r : Fin 1024) (p : Fin 3072) (R : Fin 16384)
    (hR : R.val = 1024 * b + r.val) :
    addend m c (6 * b + k.val) (ix2 r p) = ∑ s : Fin 512, argX m c (ix2 R (pos k s)) * argW m c (ix2 (pos k s) p) := by
  have hN : cfg0.N = 96 := N_0
  have hk := k.isLt
  have h : 6 * b + k.val < cfg0.N := by omega
  unfold addend
  rw [dif_pos h]
  refine Finset.sum_congr rfl fun s _ => ?_
  have hp := pos_val k s
  exact congrArg₂ (· * ·)
    (Blocks.xblk_apply m c ⟨6 * b + k.val, h⟩ r s R (pos k s) (by show R.val = 1024 * ((6 * b + k.val) / 6) + r.val; omega)
      (by show (pos k s).val = 512 * ((6 * b + k.val) % 6) + s.val; omega))
    (Blocks.wblk_apply m c ⟨6 * b + k.val, h⟩ s p (pos k s) (by show (pos k s).val = 512 * ((6 * b + k.val) % 6) + s.val; omega))

/-- So after the last point of run b the accumulator's entry (r, p) is the dense layer's entry (1024·b + r, p). -/
theorem scratch_eq_hidden (c : Dev nD) (t : Fin cfg0.N) (h5 : t.val % 6 = 5) (r : Fin 1024) (p : Fin 3072) (R : Fin 16384)
    (hR : R.val = 1024 * (t.val / 6) + r.val) :
    (outsAt0 m c t.val t.isLt).2 (ix2 r p) = Perceptron.hidden (argX m c) (argW m c) R p := by
  have hN : cfg0.N = 96 := N_0
  have ht := t.isLt
  rw [scratch_after_run m c t h5, Ideal.ofBits_zero_f32, zero_add, Finset.sum_range, hidden_tiles]
  exact Finset.sum_congr rfl fun k _ => addend_eq m c (t.val / 6) (by omega) k r p R hR

/-! ### The head on the accumulator is the result's row -/

/-- For any accumulator row that is the dense layer's row R, and blocks that are the weights and biases as the kernel is
    handed them, the head's entry (r, j) is the result's entry (R, j). -/
theorem head_eq_logits (x : Mat 16384 3072) (W : Mat 3072 3072) (A : Mat 512 3072) (a : Row 512) (B : Mat 10 512) (b : Row 10)
    (acc : Vec Ideal S1024x3072 .f32) (A' : Vec Ideal S3072x512 .bf16) (a' : Vec Ideal S1x512 .f32)
    (B' : Vec Ideal S512x10 .bf16) (b' : Vec Ideal S1x10 .f32) (r : Fin 1024) (j : Fin 10) (R : Fin 16384)
    (hacc : ∀ p, acc (ix2 r p) = Perceptron.hidden x W R p) (hA : ∀ p q, A' (ix2 p q) = A (ix2 q p))
    (ha : ∀ q, a' (ix2 (0 : Fin 1) q) = a (ix1 q)) (hB : ∀ q j, B' (ix2 q j) = B (ix2 j q))
    (hb : ∀ j, b' (ix2 (0 : Fin 1) j) = b (ix1 j)) :
    k0_pay3 (F := Ideal) acc A' a' B' b' (ix2 r j) = logits x W A a B b (ix2 R j) := by
  rw [Payload.head_apply]
  unfold logits dense
  simp only [hacc, hA, ha, hB, hb]

/-! ### From the written blocks to the array -/

/-- What a point that writes back writes is its block of the result. -/
theorem flushed_eq (c : Dev nD) (t : Fin cfg0.N) (hf : (cfg0.win 6).flush t = true) :
    (dats m 0 c).flushed 6 t = ((cfg0.win 6).blk t).view.read (Elt Ideal) (result m c) := by
  have hN : cfg0.N = 96 := N_0
  have ht := t.isLt
  have h5 : t.val % 6 = 5 := (flush0_6 t).mp hf
  have h0 : ¬t.val % 6 = 0 := by omega
  have hs : (outsAt0 m c t.val t.isLt).2
      = k0_pay2 (outsAt0 m c (t.val - 1) (Nat.lt_of_le_of_lt (Nat.sub_le _ _) t.isLt)).2 (iblk m c 0 t) (iblk m c 1 t) := by
    rw [outsAt0_C m c t h0 h5]
    dsimp only
    exact Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2
  rw [Value.flushed6_C m c t h0 h5,
    Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2, ← hs]
  funext y
  obtain ⟨r, j, rfl⟩ : ∃ (r : Fin 1024) (j : Fin 10), y = ix2 r j := ⟨y 0, y 1, eq_ix2 y⟩
  have hr := r.isLt
  let R : Fin 16384 := ⟨1024 * (t.val / 6) + r.val, by omega⟩
  obtain ⟨e0, e1⟩ := Blocks.index_out t
  have he : ((cfg0.win 6).blk t).view.emb (ix2 r j) = ix2 R j := by
    funext a; apply Fin.ext
    match a with
    | ⟨0, _⟩ => show win0_6.index t (0 : Fin 2) * 1024 + 1 * r.val = 1024 * (t.val / 6) + r.val; omega
    | ⟨1, _⟩ => show win0_6.index t (1 : Fin 2) * 10 + 1 * j.val = j.val; omega
  show k0_pay3 (F := Ideal) (outsAt0 m c t.val t.isLt).2 (iblk m c 2 t) (iblk m c 3 t) (iblk m c 4 t) (iblk m c 5 t) (ix2 r j)
    = result m c (((cfg0.win 6).blk t).view.emb (ix2 r j))
  rw [he]
  exact head_eq_logits (argX m c) (argW m c) (argA m c) (arga m c) (argB m c) (argb m c)
    (outsAt0 m c t.val t.isLt).2 (iblk m c 2 t) (iblk m c 3 t) (iblk m c 4 t) (iblk m c 5 t) r j R
    (fun p => scratch_eq_hidden m c t h5 r p R rfl)
    (fun p q => Blocks.Ablk_apply m c t p q) (fun q => Blocks.ablk_apply m c t q)
    (fun q j => Blocks.Bblk_apply m c t q j) (fun j => Blocks.bblk_apply m c t j)

/-- An index of the result is in point t's block iff each coordinate is in the block's range on its axis. -/
theorem mem_blk (t : Fin cfg0.N) (i : S16384x10.Idx) :
    i ∈ ((cfg0.win 6).blk t).view.set ↔ ∀ a : Fin 2, win0_6.index t a * S1024x10.size a ≤ (i a).val ∧ (i a).val < win0_6.index t a * S1024x10.size a + S1024x10.size a := by
  show i ∈ ((View.whole main_v8).slice (win0_6.rect t)).set ↔ _
  rw [View.set_slice_whole, Rect.mem_set_unit]
  exact Iff.rfl

/-- Row i₀ of the result is written by the last point of run i₀ / 1024. -/
theorem covered (i : S16384x10.Idx) :
    ∃ t : Fin cfg0.N, (cfg0.win 6).flush t = true ∧ i ∈ ((cfg0.win 6).blk t).view.set := by
  have hN : cfg0.N = 96 := N_0
  have hi0 : (i 0).val < 16384 := (i 0).isLt
  have hi1 : (i 1).val < 10 := (i 1).isLt
  have hlt : 6 * ((i 0).val / 1024) + 5 < cfg0.N := by omega
  refine ⟨⟨6 * ((i 0).val / 1024) + 5, hlt⟩, (flush0_6 _).mpr (by show (6 * ((i 0).val / 1024) + 5) % 6 = 5; omega), ?_⟩
  rw [mem_blk]
  obtain ⟨e0, e1⟩ := Blocks.index_out ⟨6 * ((i 0).val / 1024) + 5, hlt⟩
  have e0' : win0_6.index ⟨6 * ((i 0).val / 1024) + 5, hlt⟩ (0 : Fin 2) = (6 * ((i 0).val / 1024) + 5) / 6 := e0
  intro a
  match a with
  | ⟨0, _⟩ =>
    show win0_6.index ⟨6 * ((i 0).val / 1024) + 5, hlt⟩ (0 : Fin 2) * 1024 ≤ (i 0).val ∧ (i 0).val < win0_6.index ⟨6 * ((i 0).val / 1024) + 5, hlt⟩ (0 : Fin 2) * 1024 + 1024
    omega
  | ⟨1, _⟩ =>
    show win0_6.index ⟨6 * ((i 0).val / 1024) + 5, hlt⟩ (1 : Fin 2) * 10 ≤ (i 1).val ∧ (i 1).val < win0_6.index ⟨6 * ((i 0).val / 1024) + 5, hlt⟩ (1 : Fin 2) * 10 + 10
    omega

/-- The result array after the run. -/
theorem final (c : Dev nD) : (dats m 0 c).arrAt 6 cfg0.N = result m c :=
  (dats m 0 c).arrAt_eq_of_cover 6 (result m c) (flushed_eq m c) covered

/-- The kernel's run: the result array at the perceptron head on the dense layer, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final m c), (h c).2⟩) (Value.run_blocks m ρ)

end Cert.KernelIdeal.Logits

end
-- ==== Proof.RefLogits.lean ====
/-
  The reference, stage by stage, is the perceptron head on the dense layer.

  Its three contractions read as plain sums over the contracted coordinate, its two transposes as the weights read at
  swapped coordinates, its bias broadcasts as the bias at the column, and its rectifier as the maximum with the zero word.
-/
import proofs.«107123_j23476291240731_1_alg».proof.Proof.Gen.ReferenceIdeal.Read
import proofs.«107123_j23476291240731_1_alg».proof.Proof.Perceptron

noncomputable section

open scoped BigOperators

namespace Cert.ReferenceIdeal.RefLogits

open Cert.ReferenceIdeal Cert.ReferenceIdeal.Gen Cert.ReferenceIdeal.Read Idealize.ShloMosaic Idealize.ShloMosaic.ValueIdx
open Cert.Perceptron

/-! ### The composed index maps of the stages, as coordinates -/

theorem at_x (i : S16384x10.Idx) (q : Fin 512) (p n : Fin 3072) :
    lidx_main_v0 (lidx_main_v2 (lidx_main_v8 i q) p) n = ix2 (i 0) n :=
  funext fun a => match a with | ⟨0, _⟩ => rfl | ⟨1, _⟩ => rfl
theorem at_W (i : S16384x10.Idx) (q : Fin 512) (p n : Fin 3072) :
    ridx_main_v0 (lidx_main_v2 (lidx_main_v8 i q) p) n = ix2 n p :=
  funext fun a => match a with | ⟨0, _⟩ => rfl | ⟨1, _⟩ => rfl
theorem at_A (i : S16384x10.Idx) (q : Fin 512) (p : Fin 3072) :
    idx_main_v1 (ridx_main_v2 (lidx_main_v8 i q) p) = ix2 q p :=
  funext fun a => match a with | ⟨0, _⟩ => rfl | ⟨1, _⟩ => rfl
theorem at_a (i : S16384x10.Idx) (q : Fin 512) : idx_main_v3 (idx_main_v4 (lidx_main_v8 i q)) = ix1 q :=
  funext fun a => match a with | ⟨0, _⟩ => rfl
theorem at_B (i : S16384x10.Idx) (q : Fin 512) : idx_main_v7 (ridx_main_v8 i q) = ix2 (i 1) q :=
  funext fun a => match a with | ⟨0, _⟩ => rfl | ⟨1, _⟩ => rfl
theorem at_b (i : S16384x10.Idx) : idx_main_v9 (idx_main_v10 i) = ix1 (i 1) :=
  funext fun a => match a with | ⟨0, _⟩ => rfl

/-- The reference's result array, as a function of its six arguments, is `logits`. -/
theorem val_eq_logits (x : FVec Ideal S16384x3072 .f32) (W : FVec Ideal S3072x3072 .f32) (A : FVec Ideal S512x3072 .f32)
    (a : FVec Ideal S512 .f32) (B : FVec Ideal S10x512 .f32) (b : FVec Ideal S10 .f32) :
    val_main_v11 (F := Ideal) x W A a B b = logits x W A a B b := by
  funext i
  rw [val_main_v11_apply, val_main_v8_apply, val_main_v10_apply, val_main_v9_apply]
  simp only [val_main_v6_apply, val_main_v5_apply, val_main_v2_apply, val_main_v0_apply, val_main_v1_apply,
    val_main_v4_apply, val_main_v3_apply, val_main_v7_apply, val_main_call0_v0_apply, val_main_call0_cst_apply,
    Ideal.addf_def, Ideal.maximumf_def, Ideal.ofBits_def]
  simp only [at_x, at_W, at_A, at_a, at_B, at_b]
  unfold logits dense Perceptron.hidden
  rfl

end Cert.ReferenceIdeal.RefLogits

end
-- ==== Proof.lean ====
/-
  A dense layer and a two-layer perceptron head, fused in one kernel, against the same three matrix products written
  plainly.

  Both programs compute, for x : [16384, 3072], W : [3072, 3072], A : [512, 3072], a : [512], B : [10, 512], b : [10],

    logits r j = Σ_q max (Σ_p (Σ_n x[r, n] · W[n, p]) · A[q, p] + a[q]) 0 · B[j, q] + b[j].

  On the extended reals a change of float format is the identity, so the kernel's narrowing of its operands changes
  nothing. The kernel differs from the reference only in how the first contraction is laid out: it walks the 3072
  positions in six tiles of 512, adding each tile's partial product into an accumulator that starts from zero, one row
  tile of 1024 rows at a time. Regrouping a finite sum into tiles needs only that addition is associative and
  commutative, which holds on the extended reals with the infinities included; no finiteness of the inputs is used.

  Proof/Perceptron.lean states the function and the tiling law; Proof/RefLogits.lean reads the reference as that
  function; Proof/Pieces.lean, Proof/Payload.lean and Proof/Blocks.lean read what one grid point leaves behind and what
  it reads; Proof/Logits.lean folds the run of six points into the whole contraction and assembles the result array
  from the sixteen written blocks.
-/
import proofs.«107123_j23476291240731_1_alg».proof.Defs
import proofs.«107123_j23476291240731_1_alg».proof.Proof.Gen.Kernel
import proofs.«107123_j23476291240731_1_alg».proof.Proof.Gen.Kernel.Skeleton
import proofs.«107123_j23476291240731_1_alg».proof.Proof.Gen.Kernel.Launch
import proofs.«107123_j23476291240731_1_alg».proof.Proof.Gen.Kernel.Points
import proofs.«107123_j23476291240731_1_alg».proof.Proof.Gen.Kernel.Frame
import proofs.«107123_j23476291240731_1_alg».proof.Proof.Gen.KernelIdeal
import proofs.«107123_j23476291240731_1_alg».proof.Proof.Gen.KernelIdeal.Skeleton
import proofs.«107123_j23476291240731_1_alg».proof.Proof.Gen.KernelIdeal.Launch
import proofs.«107123_j23476291240731_1_alg».proof.Proof.Gen.KernelIdeal.Points
import proofs.«107123_j23476291240731_1_alg».proof.Proof.Gen.KernelIdeal.Frame
import proofs.«107123_j23476291240731_1_alg».proof.Proof.Gen.ReferenceIdeal
import proofs.«107123_j23476291240731_1_alg».proof.Proof.Gen.Pre_finite_inputs
import proofs.«107123_j23476291240731_1_alg».proof.Proof.Gen.KernelIdeal.Value
import proofs.«107123_j23476291240731_1_alg».proof.Proof.Gen.ReferenceIdeal.Run
import proofs.«107123_j23476291240731_1_alg».proof.Proof.Gen.ReferenceIdeal.Read
import proofs.«107123_j23476291240731_1_alg».proof.Proof.Logits
import proofs.«107123_j23476291240731_1_alg».proof.Proof.RefLogits
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From arguments that agree, both runs end with the result array at `logits` of the arguments. -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  have hc := hagree c
  rw [hc.1, hc.2.1, hc.2.2.1, hc.2.2.2.1, hc.2.2.2.2.1, hc.2.2.2.2.2]
  exact (Cert.ReferenceIdeal.Read.val_main_v11_eq _ _ _ _ _ _).trans (Cert.ReferenceIdeal.RefLogits.val_eq_logits _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
